-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6x32x32x30 : Shape := ⟨5, ![8, 6, 32, 32, 30]⟩
abbrev S50000x64 : Shape := ⟨2, ![50000, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel

variable [Facts]

def fn {F : FTy → Type} [FloatOps F] (main_arg0 : IVec S8x6x32x32x30 32) (main_arg1 : FVec F S50000x64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  main_v3
-- ==== Kernel.lean ====
abbrev S8x6x32x32x30 : Shape := ⟨5, ![8, 6, 32, 32, 30]⟩
abbrev S50000x64 : Shape := ⟨2, ![50000, 64]⟩
abbrev S_ : Shape := ⟨0, ![]⟩
abbrev S8x6x32x32x30x1 : Shape := ⟨6, ![8, 6, 32, 32, 30, 1]⟩
abbrev S8x6x32x32x30x64 : Shape := ⟨6, ![8, 6, 32, 32, 30, 64]⟩
abbrev S8x6x32x32x64 : Shape := ⟨5, ![8, 6, 32, 32, 64]⟩
abbrev S1x1x8x32x30x64 : Shape := ⟨6, ![1, 1, 8, 32, 30, 64]⟩
abbrev S1x1x8x32x64 : Shape := ⟨5, ![1, 1, 8, 32, 64]⟩
abbrev S8x32x30x64 : Shape := ⟨4, ![8, 32, 30, 64]⟩
abbrev S8x32x64 : Shape := ⟨3, ![8, 32, 64]⟩
abbrev S8x32x1x64 : Shape := ⟨4, ![8, 32, 1, 64]⟩
abbrev S8x32x30 : Shape := ⟨3, ![8, 32, 30]⟩
abbrev S8x32 : Shape := ⟨2, ![8, 32]⟩
abbrev S8x32x1 : Shape := ⟨3, ![8, 32, 1]⟩
abbrev S8x32x30x1 : Shape := ⟨4, ![8, 32, 30, 1]⟩
abbrev S8x6x64x32x32 : Shape := ⟨5, ![8, 6, 64, 32, 32]⟩
abbrev S8x384x32x32 : Shape := ⟨4, ![8, 384, 32, 32]⟩

abbrev nBuf : Space → Nat
  | .hbm => 14
  | .vmem => 4
  | .smem => 0
  | _ => 0

abbrev bufTy : (tb : Table) → Fin (tcTables nBuf tb) → BufTy
  | .hbm, ⟨0, _⟩ => ⟨S8x6x32x32x30, .i32⟩
  | .hbm, ⟨1, _⟩ => ⟨S50000x64, .f32⟩
  | .hbm, ⟨2, _⟩ => ⟨S_, .i32⟩
  | .hbm, ⟨3, _⟩ => ⟨S8x6x32x32x30, .i32⟩
  | .hbm, ⟨4, _⟩ => ⟨S8x6x32x32x30, .i1⟩
  | .hbm, ⟨5, _⟩ => ⟨S_, .i32⟩
  | .hbm, ⟨6, _⟩ => ⟨S8x6x32x32x30, .i32⟩
  | .hbm, ⟨7, _⟩ => ⟨S8x6x32x32x30, .i32⟩
  | .hbm, ⟨8, _⟩ => ⟨S8x6x32x32x30, .i32⟩
  | .hbm, ⟨9, _⟩ => ⟨S8x6x32x32x30x1, .i32⟩
  | .hbm, ⟨10, _⟩ => ⟨S8x6x32x32x30x64, .f32⟩
  | .hbm, ⟨11, _⟩ => ⟨S8x6x32x32x64, .f32⟩
  | .hbm, ⟨12, _⟩ => ⟨S8x6x64x32x32, .f32⟩
  | .hbm, ⟨13, _⟩ => ⟨S8x384x32x32, .f32⟩
  | .local _ .vmem, ⟨0, _⟩ => ⟨S1x1x8x32x30x64, .f32⟩
  | .local _ .vmem, ⟨1, _⟩ => ⟨S1x1x8x32x30x64, .f32⟩
  | .local _ .vmem, ⟨2, _⟩ => ⟨S1x1x8x32x64, .f32⟩
  | .local _ .vmem, ⟨3, _⟩ => ⟨S1x1x8x32x64, .f32⟩
  | _, _ => ⟨S8x6x32x32x30, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 6, 4], ![false, false, false]⟩

def cc0_transform_0 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, arg2.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x8x32x30x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  bcast_S_S8x6x32x32x30 : S_.BroadcastsInDim S8x6x32x32x30 (![] : Fin 0 → Fin S8x6x32x32x30.rank)
  bcast_S8x6x32x32x30_S8x6x32x32x30x1_0_1_2_3_4 : S8x6x32x32x30.BroadcastsInDim S8x6x32x32x30x1 (![0, 1, 2, 3, 4] : Fin 5 → Fin S8x6x32x32x30x1.rank)
  inb_S1x1x8x32x30x64_S1x1x8x32x30x64_0_0_0_0_0_0 : ∀ a, (![0, 0, 0, 0, 0, 0] : Fin 6 → Nat) a + S1x1x8x32x30x64.size a ≤ S1x1x8x32x30x64.size a
  h_S1x1x8x32x30x64 : 0 < S1x1x8x32x30x64.numel
  shapeCasts_S1x1x8x32x30x64_S8x32x30x64 : S1x1x8x32x30x64.ShapeCasts S8x32x30x64
  reduces_S8x32x30x64_S8x32x64 : S8x32x30x64.Reduces [2] S8x32x64
  shapeCasts_S8x32x64_S8x32x1x64 : S8x32x64.ShapeCasts S8x32x1x64
  broadcasts_S8x32x1x64_S8x32x30x64 : S8x32x1x64.Broadcasts S8x32x30x64
  reduces_S8x32x30x64_S8x32x30 : S8x32x30x64.Reduces [3] S8x32x30
  reduces_S8x32x30_S8x32 : S8x32x30.Reduces [2] S8x32
  shapeCasts_S8x32_S8x32x1 : S8x32.ShapeCasts S8x32x1
  broadcasts_S8x32x1_S8x32x30 : S8x32x1.Broadcasts S8x32x30
  shapeCasts_S8x32x30_S8x32x30x1 : S8x32x30.ShapeCasts S8x32x30x1
  broadcasts_S8x32x30x1_S8x32x30x64 : S8x32x30x1.Broadcasts S8x32x30x64
  inb_S1x1x8x32x64_S1x1x8x32x64_0_0_0_0_0 : ∀ a, (![0, 0, 0, 0, 0] : Fin 5 → Nat) a + S1x1x8x32x64.size a ≤ S1x1x8x32x64.size a
  h_S1x1x8x32x64 : 0 < S1x1x8x32x64.numel
  shapeCasts_S1x1x8x32x64_S8x32x64 : S1x1x8x32x64.ShapeCasts S8x32x64
  shapeCasts_S8x32x64_S1x1x8x32x64 : S8x32x64.ShapeCasts S1x1x8x32x64
  transposes_S8x6x32x32x64_S8x6x64x32x32_0_1_4_2_3 : S8x6x32x32x64.Transposes [0, 1, 4, 2, 3] S8x6x64x32x32
  shapeCasts_S8x6x64x32x32_S8x384x32x32 : S8x6x64x32x32.ShapeCasts S8x384x32x32
  gather_S50000x64_S8x6x32x32x30x1_S8x6x32x32x30x64_5_0_n_n_0_5_164_wf : GatherDims.WF S50000x64 S8x6x32x32x30x1 S8x6x32x32x30x64 [5] [0] [] [0] [] 5 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x32x30x64.size a ≤ S8x6x32x32x30x64.size a
  hwx0_0 : ∀ i : grid0.Coords, EltTy.bits .f32 = 32 ∨ (Rect.block (s := S8x6x32x32x30x64) S1x1x8x32x30x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x32x64.size a ≤ S8x6x32x32x64.size a
  hwx0_1 : ∀ i : grid0.Coords, EltTy.bits .f32 = 32 ∨ (Rect.block (s := S8x6x32x32x64) S1x1x8x32x64.size (cc0_transform_1 i) (hinb0_1 i)).WholeWords (EltTy.packing .f32)

variable [Facts₀]

def gather_S50000x64_S8x6x32x32x30x1_S8x6x32x32x30x64_5_0_n_n_0_5_164 : GatherDims S50000x64 S8x6x32x32x30x1 S8x6x32x32x30x64 where
  offsetDims := [5]
  collapsedSliceDims := [0]
  operandBatchingDims := []
  startIndicesBatchingDims := []
  startIndexMap := [0]
  indexVectorDim := 5
  sliceSizes := ![1, 64]
  wf := gather_S50000x64_S8x6x32x32x30x1_S8x6x32x32x30x64_5_0_n_n_0_5_164_wf

abbrev win0_0 : Pipeline.Window sig grid0 :=
  Pipeline.Window.ofSpec (Memref.whole main_v6) S1x1x8x32x30x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x8x32x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x6x32x32x30 : Shape := ⟨5, ![8, 6, 32, 32, 30]⟩
abbrev S50000x64 : Shape := ⟨2, ![50000, 64]⟩
abbrev S_ : Shape := ⟨0, ![]⟩
abbrev S8x6x32x32x30x1 : Shape := ⟨6, ![8, 6, 32, 32, 30, 1]⟩
abbrev S8x6x32x32x30x64 : Shape := ⟨6, ![8, 6, 32, 32, 30, 64]⟩
abbrev S8x6x32x32x64 : Shape := ⟨5, ![8, 6, 32, 32, 64]⟩
abbrev S8x6x32x32x1x64 : Shape := ⟨6, ![8, 6, 32, 32, 1, 64]⟩
abbrev S8x6x32x32 : Shape := ⟨4, ![8, 6, 32, 32]⟩
abbrev S8x6x32x32x1 : Shape := ⟨5, ![8, 6, 32, 32, 1]⟩
abbrev S8x6x64x32x32 : Shape := ⟨5, ![8, 6, 64, 32, 32]⟩
abbrev S8x384x32x32 : Shape := ⟨4, ![8, 384, 32, 32]⟩

abbrev nBuf : Space → Nat
  | .hbm => 39
  | .vmem => 0
  | .smem => 0
  | _ => 0

abbrev bufTy : (tb : Table) → Fin (tcTables nBuf tb) → BufTy
  | .hbm, ⟨0, _⟩ => ⟨S8x6x32x32x30, .i32⟩
  | .hbm, ⟨1, _⟩ => ⟨S50000x64, .f32⟩
  | .hbm, ⟨2, _⟩ => ⟨S_, .i32⟩
  | .hbm, ⟨3, _⟩ => ⟨S8x6x32x32x30, .i32⟩
  | .hbm, ⟨4, _⟩ => ⟨S8x6x32x32x30, .i1⟩
  | .hbm, ⟨5, _⟩ => ⟨S_, .i32⟩
  | .hbm, ⟨6, _⟩ => ⟨S8x6x32x32x30, .i32⟩
  | .hbm, ⟨7, _⟩ => ⟨S8x6x32x32x30, .i32⟩
  | .hbm, ⟨8, _⟩ => ⟨S8x6x32x32x30, .i32⟩
  | .hbm, ⟨9, _⟩ => ⟨S8x6x32x32x30x1, .i32⟩
  | .hbm, ⟨10, _⟩ => ⟨S8x6x32x32x30x64, .f32⟩
  | .hbm, ⟨11, _⟩ => ⟨S_, .f32⟩
  | .hbm, ⟨12, _⟩ => ⟨S8x6x32x32x64, .f32⟩
  | .hbm, ⟨13, _⟩ => ⟨S8x6x32x32x1x64, .f32⟩
  | .hbm, ⟨14, _⟩ => ⟨S8x6x32x32x30x64, .f32⟩
  | .hbm, ⟨15, _⟩ => ⟨S8x6x32x32x30x64, .f32⟩
  | .hbm, ⟨16, _⟩ => ⟨S_, .f32⟩
  | .hbm, ⟨17, _⟩ => ⟨S8x6x32x32x30, .f32⟩
  | .hbm, ⟨18, _⟩ => ⟨S_, .f32⟩
  | .hbm, ⟨19, _⟩ => ⟨S8x6x32x32, .f32⟩
  | .hbm, ⟨20, _⟩ => ⟨S_, .f32⟩
  | .hbm, ⟨21, _⟩ => ⟨S8x6x32x32, .f32⟩
  | .hbm, ⟨22, _⟩ => ⟨S8x6x32x32, .f32⟩
  | .hbm, ⟨23, _⟩ => ⟨S8x6x32x32x1, .f32⟩
  | .hbm, ⟨24, _⟩ => ⟨S8x6x32x32x30, .f32⟩
  | .hbm, ⟨25, _⟩ => ⟨S8x6x32x32x30, .f32⟩
  | .hbm, ⟨26, _⟩ => ⟨S8x6x32x32x30, .f32⟩
  | .hbm, ⟨27, _⟩ => ⟨S_, .f32⟩
  | .hbm, ⟨28, _⟩ => ⟨S8x6x32x32, .f32⟩
  | .hbm, ⟨29, _⟩ => ⟨S8x6x32x32x1, .f32⟩
  | .hbm, ⟨30, _⟩ => ⟨S8x6x32x32x30, .f32⟩
  | .hbm, ⟨31, _⟩ => ⟨S8x6x32x32x30, .f32⟩
  | .hbm, ⟨32, _⟩ => ⟨S8x6x32x32x30x1, .f32⟩
  | .hbm, ⟨33, _⟩ => ⟨S8x6x32x32x30x64, .f32⟩
  | .hbm, ⟨34, _⟩ => ⟨S8x6x32x32x30x64, .f32⟩
  | .hbm, ⟨35, _⟩ => ⟨S_, .f32⟩
  | .hbm, ⟨36, _⟩ => ⟨S8x6x32x32x64, .f32⟩
  | .hbm, ⟨37, _⟩ => ⟨S8x6x64x32x32, .f32⟩
  | .hbm, ⟨38, _⟩ => ⟨S8x384x32x32, .f32⟩
  | _, _ => ⟨S8x6x32x32x30, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S8x6x32x32x30 : S_.BroadcastsInDim S8x6x32x32x30 (![] : Fin 0 → Fin S8x6x32x32x30.rank)
  bcast_S8x6x32x32x30_S8x6x32x32x30x1_0_1_2_3_4 : S8x6x32x32x30.BroadcastsInDim S8x6x32x32x30x1 (![0, 1, 2, 3, 4] : Fin 5 → Fin S8x6x32x32x30x1.rank)
  reducesTo_S8x6x32x32x30x64_S8x6x32x32x64_d4 : S8x6x32x32x30x64.ReducesTo [4] S8x6x32x32x64
  h_S_ : 0 < S_.numel
  bcast_S8x6x32x32x64_S8x6x32x32x1x64_0_1_2_3_5 : S8x6x32x32x64.BroadcastsInDim S8x6x32x32x1x64 (![0, 1, 2, 3, 5] : Fin 5 → Fin S8x6x32x32x1x64.rank)
  bcast_S8x6x32x32x1x64_S8x6x32x32x30x64_0_1_2_3_4_5 : S8x6x32x32x1x64.BroadcastsInDim S8x6x32x32x30x64 (![0, 1, 2, 3, 4, 5] : Fin 6 → Fin S8x6x32x32x30x64.rank)
  reducesTo_S8x6x32x32x30x64_S8x6x32x32x30_d5 : S8x6x32x32x30x64.ReducesTo [5] S8x6x32x32x30
  reducesTo_S8x6x32x32x30_S8x6x32x32_d4 : S8x6x32x32x30.ReducesTo [4] S8x6x32x32
  bcast_S_S8x6x32x32 : S_.BroadcastsInDim S8x6x32x32 (![] : Fin 0 → Fin S8x6x32x32.rank)
  bcast_S8x6x32x32_S8x6x32x32x1_0_1_2_3 : S8x6x32x32.BroadcastsInDim S8x6x32x32x1 (![0, 1, 2, 3] : Fin 4 → Fin S8x6x32x32x1.rank)
  bcast_S8x6x32x32x1_S8x6x32x32x30_0_1_2_3_4 : S8x6x32x32x1.BroadcastsInDim S8x6x32x32x30 (![0, 1, 2, 3, 4] : Fin 5 → Fin S8x6x32x32x30.rank)
  bcast_S8x6x32x32x30x1_S8x6x32x32x30x64_0_1_2_3_4_5 : S8x6x32x32x30x1.BroadcastsInDim S8x6x32x32x30x64 (![0, 1, 2, 3, 4, 5] : Fin 6 → Fin S8x6x32x32x30x64.rank)
  transposes_S8x6x32x32x64_S8x6x64x32x32_0_1_4_2_3 : S8x6x32x32x64.Transposes [0, 1, 4, 2, 3] S8x6x64x32x32
  shapeCasts_S8x6x64x32x32_S8x384x32x32 : S8x6x64x32x32.ShapeCasts S8x384x32x32
  gather_S50000x64_S8x6x32x32x30x1_S8x6x32x32x30x64_5_0_n_n_0_5_164_wf : GatherDims.WF S50000x64 S8x6x32x32x30x1 S8x6x32x32x30x64 [5] [0] [] [0] [] 5 ![1, 64]

variable [Facts₀]

def gather_S50000x64_S8x6x32x32x30x1_S8x6x32x32x30x64_5_0_n_n_0_5_164 : GatherDims S50000x64 S8x6x32x32x30x1 S8x6x32x32x30x64 where
  offsetDims := [5]
  collapsedSliceDims := [0]
  operandBatchingDims := []
  startIndicesBatchingDims := []
  startIndexMap := [0]
  indexVectorDim := 5
  sliceSizes := ![1, 64]
  wf := gather_S50000x64_S8x6x32x32x30x1_S8x6x32x32x30x64_5_0_n_n_0_5_164_wf

class Facts : Prop extends Facts₀ where

variable [Facts]
-- ==== Proof.PoolRow.lean ====
/-
  Attention pooling of one group of 30 token vectors of length 64, on the extended reals.

  Given the vectors X l (l < 30), the summary vector is their sum; the score of token l is the inner product of X l
  with the summary; the weights are the softmax of the scores over the 30 tokens, taken as the exponential of the
  score less the largest score, divided by the sum of those exponentials; the pooled vector is the sum of the X l
  weighted so. Sums are finite sums of extended reals, the largest score is the maximum folded from the value of the
  word of −∞ (kept as that word's value: both programs carry the same word, so it is never evaluated), and the
  quotient and the exponential are the extended-real ones.
-/
import Idealize.ShloMosaic.PureOps.Ideal
import Idealize.ShloMosaic.Lib.ValueIdx

noncomputable section

open scoped BigOperators

namespace Cert.Pool

open Idealize.ShloMosaic Idealize.ShloMosaic.ValueIdx

/-- The value of the word of f32's −∞, left as that word's value. -/
abbrev negInf : EReal := Ideal.ofBits .f32 0xFF800000#32

/-- The summary vector: the sum of the 30 token vectors. -/
def summary (X : Fin 30 → Fin 64 → EReal) (e : Fin 64) : EReal := ∑ l : Fin 30, X l e

/-- Token l's score: its inner product with the summary vector. -/
def score (X : Fin 30 → Fin 64 → EReal) (l : Fin 30) : EReal := ∑ e : Fin 64, X l e * summary X e

/-- The largest score, folded from −∞ (and compared with −∞ once more, as both programs do). -/
def topScore (X : Fin 30 → Fin 64 → EReal) : EReal :=
  max negInf ((Finset.univ : Finset (Fin 30)).fold max negInf (score X))

/-- The exponential of token l's score less the largest. -/
def expScore (X : Fin 30 → Fin 64 → EReal) (l : Fin 30) : EReal := Ideal.exp (score X l - topScore X)

/-- The sum of those exponentials. -/
def expTotal (X : Fin 30 → Fin 64 → EReal) : EReal := ∑ l : Fin 30, expScore X l

/-- Token l's softmax weight. -/
def weight (X : Fin 30 → Fin 64 → EReal) (l : Fin 30) : EReal := Ideal.div (expScore X l) (expTotal X)

/-- The pooled vector: the token vectors summed with their softmax weights. -/
def poolRow (X : Fin 30 → Fin 64 → EReal) (e : Fin 64) : EReal := ∑ l : Fin 30, X l e * weight X l

end Cert.Pool

end
-- ==== Proof.LibGroupLayout.lean ====
/-
  Vectors of rank two to six read at indices written by coordinates: the layouts and one-axis reductions met when a
  reduction is taken with its axis kept.

  A block [1, 1, a, b, c, d] viewed as
  [a, b, c, d] keeps its entries, and so does [a, b, c] viewed as [1, 1, a, b, c]. A vector cast to the same shape with
  one more axis of extent one (in the middle or at the end) reads, at an index whose coordinate on that axis is the only
  one there is, the vector at the remaining coordinates; broadcast along that axis it reads the same entry at every
  coordinate of the axis. A float sum over one axis, at an index of the result, is the sum over that axis's coordinates
  of the source at the index with the coordinate put back; a float maximum likewise is the maximum folded from the
  accumulator's value.
  Every statement is generic in the extents.
-/
import Idealize.ShloMosaic.Lib.ValueLayout
import Idealize.ShloMosaic.PureOps.Ideal.Laws

noncomputable section

open scoped BigOperators

namespace Cert.LibGroupLayout

open Idealize.ShloMosaic Idealize.ShloMosaic.ValueIdx

variable {α : Type}

/-! ## Two leading axes of extent one, dropped or added -/

/-- A block [1, 1, a, b, c, d] viewed as [a, b, c, d] reads, at (p, q, r, s), the block at (u, u', p, q, r, s). -/
theorem cast_drop_two_units {a b c d : ℕ} (x : (⟨6, ![1, 1, a, b, c, d]⟩ : Shape).Idx → α)
    (h : (⟨6, ![1, 1, a, b, c, d]⟩ : Shape).ShapeCasts ⟨4, ![a, b, c, d]⟩)
    (u u' : Fin 1) (p : Fin a) (q : Fin b) (r : Fin c) (s : Fin d) :
    shapeCast ⟨4, ![a, b, c, d]⟩ x h (ix4 p q r s) = x (ix6 u u' p q r s) :=
  shapeCast_apply x h _ _ (by
    have hu : u.val = 0 := by omega
    have hu' : u'.val = 0 := by omega
    rw [Shape.rowMajor_val_six, Shape.rowMajor_val_four]
    show ((((u.val * 1 + u'.val) * a + p.val) * b + q.val) * c + r.val) * d + s.val
      = ((p.val * b + q.val) * c + r.val) * d + s.val
    rw [hu, hu']
    simp)

/-- A vector [a, b, c] viewed as [1, 1, a, b, c] reads, at (u, u', p, q, r), the vector at (p, q, r). -/
theorem cast_add_two_units {a b c : ℕ} (x : (⟨3, ![a, b, c]⟩ : Shape).Idx → α)
    (h : (⟨3, ![a, b, c]⟩ : Shape).ShapeCasts ⟨5, ![1, 1, a, b, c]⟩)
    (u u' : Fin 1) (p : Fin a) (q : Fin b) (r : Fin c) :
    shapeCast ⟨5, ![1, 1, a, b, c]⟩ x h (ix5 u u' p q r) = x (ix3 p q r) :=
  shapeCast_apply x h _ _ (by
    have hu : u.val = 0 := by omega
    have hu' : u'.val = 0 := by omega
    rw [Shape.rowMajor_val_three, Shape.rowMajor_val_five]
    show (p.val * b + q.val) * c + r.val = (((u.val * 1 + u'.val) * a + p.val) * b + q.val) * c + r.val
    rw [hu, hu']
    simp)

/-! ## An axis of extent one put in, and broadcast along -/

/-- [a, b, d] cast to [a, b, 1, d] reads, at (p, q, u, s), the vector at (p, q, s). -/
theorem cast_unit_third_of_four {a b d : ℕ} (x : (⟨3, ![a, b, d]⟩ : Shape).Idx → α)
    (h : (⟨3, ![a, b, d]⟩ : Shape).ShapeCasts ⟨4, ![a, b, 1, d]⟩) (p : Fin a) (q : Fin b) (u : Fin 1) (s : Fin d) :
    shapeCast ⟨4, ![a, b, 1, d]⟩ x h (ix4 p q u s) = x (ix3 p q s) :=
  shapeCast_apply x h _ _ (by
    have hu : u.val = 0 := by omega
    rw [Shape.rowMajor_val_three, Shape.rowMajor_val_four]
    show (p.val * b + q.val) * d + s.val = ((p.val * b + q.val) * 1 + u.val) * d + s.val
    rw [hu, Nat.mul_one, Nat.add_zero])

/-- [a, b, 1, d] broadcast to [a, b, c, d] reads, at (p, q, r, s), the vector at (p, q, 0, s). -/
theorem bcast_third_of_four {a b c d : ℕ} (v : (⟨4, ![a, b, 1, d]⟩ : Shape).Idx → α)
    (h : (⟨4, ![a, b, 1, d]⟩ : Shape).Broadcasts ⟨4, ![a, b, c, d]⟩) (p : Fin a) (q : Fin b) (r : Fin c) (s : Fin d) :
    broadcastTo ⟨4, ![a, b, c, d]⟩ v h (ix4 p q r s) = v (ix4 p q (0 : Fin 1) s) := by
  refine broadcastTo_apply v h (ix4 p q r s) (ix4 p q (0 : Fin 1) s) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ =>
    show s.val = if d = 1 then 0 else s.val
    split
    · have := s.isLt; omega
    · rfl

/-- [a, b] cast to [a, b, 1] reads, at (p, q, u), the matrix at (p, q). -/
theorem cast_unit_last_of_three {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- [a, b, 1] broadcast to [a, b, c] reads, at (p, q, r), the vector at (p, q, 0). -/
theorem bcast_last_of_three {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, b, c] cast to [a, b, c, 1] reads, at (p, q, r, u), the vector at (p, q, r). -/
theorem cast_unit_last_of_four {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- [a, b, c, 1] broadcast to [a, b, c, d] reads, at (p, q, r, s), the vector at (p, q, r, 0). -/
theorem bcast_last_of_four {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-! ## One-axis reductions read at a coordinate -/

/-- Reducing [a, b, c, d] over its third axis: the index the reduction puts coordinate k back into, over (p, q, s). -/
theorem lift_third_of_four {a b c d : ℕ} (h : (⟨4, ![a, b, c, d]⟩ : Shape).Reduces [2] ⟨3, ![a, b, d]⟩)
    (p : Fin a) (q : Fin b) (s : Fin d) (k : Fin c) : h.lift (ix3 p q s) k = ix4 p q k s :=
  funext fun ax => Fin.ext (match ax with | ⟨0, _⟩ => rfl | ⟨1, _⟩ => rfl | ⟨2, _⟩ => rfl | ⟨3, _⟩ => rfl)

/-- A float sum of [a, b, c, d] over its third axis, at (p, q, s), is the sum over k of the source at (p, q, k, s). -/
theorem sum_third_of_four {a b c d : ℕ} (src : FVec Ideal ⟨4, ![a, b, c, d]⟩ .f32)
    (h : (⟨4, ![a, b, c, d]⟩ : Shape).Reduces [2] ⟨3, ![a, b, d]⟩) (hφ : FKind.Formats .f32)
    (hacc : (0x00000000#32 : BitVec 32) = FKind.add.neutral .f32 hφ) (p : Fin a) (q : Fin b) (s : Fin d) :
    multiReduction .add [2] ⟨3, ![a, b, d]⟩ src 0x00000000#32 h hφ hacc (ix3 p q s) = ∑ k : Fin c, src (ix4 p q k s) :=
  (Ideal.multiReduction_add_single src _ h hφ hacc (ix3 p q s)).trans
    (Finset.sum_congr rfl fun k _ => congrArg src (lift_third_of_four h p q s k))

/-- Reducing [a, b, c, d] over its last axis: the index over (p, q, r) with k put back. -/
theorem lift_last_of_four {a b c d : ℕ} (h : (⟨4, ![a, b, c, d]⟩ : Shape).Reduces [3] ⟨3, ![a, b, c]⟩)
    (p : Fin a) (q : Fin b) (r : Fin c) (k : Fin d) : h.lift (ix3 p q r) k = ix4 p q r k :=
  funext fun ax => Fin.ext (match ax with | ⟨0, _⟩ => rfl | ⟨1, _⟩ => rfl | ⟨2, _⟩ => rfl | ⟨3, _⟩ => rfl)

/-- A float sum of [a, b, c, d] over its last axis, at (p, q, r), is the sum over k of the source at (p, q, r, k). -/
theorem sum_last_of_four {a b c d : ℕ} (src : FVec Ideal ⟨4, ![a, b, c, d]⟩ .f32)
    (h : (⟨4, ![a, b, c, d]⟩ : Shape).Reduces [3] ⟨3, ![a, b, c]⟩) (hφ : FKind.Formats .f32)
    (hacc : (0x00000000#32 : BitVec 32) = FKind.add.neutral .f32 hφ) (p : Fin a) (q : Fin b) (r : Fin c) :
    multiReduction .add [3] ⟨3, ![a, b, c]⟩ src 0x00000000#32 h hφ hacc (ix3 p q r) = ∑ k : Fin d, src (ix4 p q r k) :=
  (Ideal.multiReduction_add_single src _ h hφ hacc (ix3 p q r)).trans
    (Finset.sum_congr rfl fun k _ => congrArg src (lift_last_of_four h p q r k))

/-- Reducing [a, b, c] over its last axis: the index over (p, q) with k put back. -/
theorem lift_last_of_three {a b c : ℕ} (h : (⟨3, ![a, b, c]⟩ : Shape).Reduces [2] ⟨2, ![a, b]⟩)
    (p : Fin a) (q : Fin b) (k : Fin c) : h.lift (ix2 p q) k = ix3 p q k :=
  funext fun ax => Fin.ext (match ax with | ⟨0, _⟩ => rfl | ⟨1, _⟩ => rfl | ⟨2, _⟩ => rfl)

/-- A float sum of [a, b, c] over its last axis, at (p, q), is the sum over k of the source at (p, q, k). -/
theorem sum_last_of_three {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = ∑ k : Fin c, src (ix3 p q k) :=
  (Ideal.multiReduction_add_single src _ h hφ hacc (ix2 p q)).trans
    (Finset.sum_congr rfl fun k _ => congrArg src (lift_last_of_three h p q k))

/-- A float maximum of [a, b, c] over its last axis from the accumulator word `acc`, at (p, q), is the maximum of the
    source at (p, q, k) over k, folded from the value of that word. -/
theorem max_last_of_three {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src _ h hφ hacc (ix2 p q)).trans ?_
  show (Finset.univ : Finset (Fin c)).fold max (Ideal.ofBits .f32 acc) (src ∘ h.lift (ix2 p q)) = _
  exact congrArg (fun g : Fin c → EReal => (Finset.univ : Finset (Fin c)).fold max (Ideal.ofBits .f32 acc) g)
    (funext fun k => congrArg src (lift_last_of_three h p q k))

end Cert.LibGroupLayout

end
-- ==== Proof.KernelRow.lean ====
/-
  The kernel body's stored value, read at a coordinate of the block.

  The body loads a block [1, 1, 8, 32, 30, 64] of gathered token vectors, views it as 8 × 32 groups of 30 vectors of
  length 64, and for each group forms the summary vector, the scores, their softmax and the weighted sum. Its stages
  are named here one by one (their composition is the stored value, by unfolding); each stage read at the
  coordinates (th, w, …) of a group is the matching function of PoolRow.lean of that group's 30 vectors
  `fun l e => x (u, u', th, w, l, e)`. So the stored block at (u, u', th, w, e) is the pooled vector of group (th, w)
  at e.
-/
import proofs.«126730_j1537598292345_1_alg».proof.Proof.Gen.KernelIdeal.Skeleton
import proofs.«126730_j1537598292345_1_alg».proof.Proof.PoolRow
import proofs.«126730_j1537598292345_1_alg».proof.Proof.LibGroupLayout

noncomputable section

open scoped BigOperators

namespace Cert.KernelIdeal.RowValue

open Idealize.ShloMosaic Idealize.ShloMosaic.ValueIdx Cert.KernelIdeal Cert.KernelIdeal.Gen Cert.Pool Cert.LibGroupLayout

variable (x : FVec Ideal S1x1x8x32x30x64 .f32)

/-! ## The stages -/

/-- The block as 8 × 32 groups of 30 vectors of length 64. -/
def tok : FVec Ideal S8x32x30x64 .f32 := shapeCast S8x32x30x64 x shapeCasts_S1x1x8x32x30x64_S8x32x30x64
/-- Each group's summary vector. -/
def sumv : FVec Ideal S8x32x64 .f32 :=
  multiReduction .add [2] S8x32x64 (tok x) 0x00000000#32 reduces_S8x32x30x64_S8x32x64 (.inl rfl) rfl
/-- The summary vector repeated along the 30 tokens. -/
def sumb : FVec Ideal S8x32x30x64 .f32 :=
  broadcastTo S8x32x30x64 (shapeCast S8x32x1x64 (sumv x) shapeCasts_S8x32x64_S8x32x1x64) broadcasts_S8x32x1x64_S8x32x30x64
/-- Each token's score. -/
def sc : FVec Ideal S8x32x30 .f32 :=
  multiReduction .add [3] S8x32x30 (mulf (tok x) (sumb x)) 0x00000000#32 reduces_S8x32x30x64_S8x32x30 (.inl rfl) rfl
/-- Each group's largest score. -/
def top : FVec Ideal S8x32 .f32 :=
  maximumf (broadcast S8x32 (Scalar.ofBits .f32 0xFF800000#32))
    (multiReduction .maximumf [2] S8x32 (sc x) 0xFF800000#32 reduces_S8x32x30_S8x32 (.inl rfl) rfl)
/-- The largest score repeated along the tokens. -/
def topb : FVec Ideal S8x32x30 .f32 :=
  broadcastTo S8x32x30 (shapeCast S8x32x1 (top x) shapeCasts_S8x32_S8x32x1) broadcasts_S8x32x1_S8x32x30
/-- The exponentials of the scores less the largest. -/
def ex : FVec Ideal S8x32x30 .f32 := exp (subf (sc x) (topb x))
/-- Each group's sum of exponentials. -/
def tot : FVec Ideal S8x32 .f32 :=
  multiReduction .add [2] S8x32 (ex x) 0x00000000#32 reduces_S8x32x30_S8x32 (.inl rfl) rfl
/-- That sum repeated along the tokens. -/
def totb : FVec Ideal S8x32x30 .f32 :=
  broadcastTo S8x32x30 (shapeCast S8x32x1 (tot x) shapeCasts_S8x32_S8x32x1) broadcasts_S8x32x1_S8x32x30
/-- The softmax weights. -/
def wt : FVec Ideal S8x32x30 .f32 := divf (ex x) (totb x)
/-- The weights repeated along the 64 entries. -/
def wtb : FVec Ideal S8x32x30x64 .f32 :=
  broadcastTo S8x32x30x64 (shapeCast S8x32x30x1 (wt x) shapeCasts_S8x32x30_S8x32x30x1) broadcasts_S8x32x30x1_S8x32x30x64
/-- Each group's pooled vector. -/
def pooled : FVec Ideal S8x32x64 .f32 :=
  multiReduction .add [2] S8x32x64 (mulf (tok x) (wtb x)) 0x00000000#32 reduces_S8x32x30x64_S8x32x64 (.inl rfl) rfl

/-- The stored value is the pooled vectors viewed as a block [1, 1, 8, 32, 64]. -/
theorem pay_eq : k0_pay1 (F := Ideal) x = shapeCast S1x1x8x32x64 (pooled x) shapeCasts_S8x32x64_S1x1x8x32x64 := rfl

/-! ## Each stage at a group's coordinates -/

variable (u u' : Fin 1) (th : Fin 8) (w : Fin 32)

/-- The 30 vectors of group (th, w) of the block. -/
def grp : Fin 30 → Fin 64 → EReal := fun l e => x (ix6 u u' th w l e)

theorem tok_at (l : Fin 30) (e : Fin 64) : tok x (ix4 th w l e) = grp x u u' th w l e :=
  cast_drop_two_units x shapeCasts_S1x1x8x32x30x64_S8x32x30x64 u u' th w l e

theorem sumv_at (e : Fin 64) : sumv x (ix3 th w e) = summary (grp x u u' th w) e := by
  unfold sumv summary
  refine (sum_third_of_four (tok x) reduces_S8x32x30x64_S8x32x64 (.inl rfl) rfl th w e).trans ?_
  exact Finset.sum_congr rfl fun l _ => tok_at x u u' th w l e

theorem sumb_at (l : Fin 30) (e : Fin 64) : sumb x (ix4 th w l e) = summary (grp x u u' th w) e := by
  unfold sumb
  refine (bcast_third_of_four _ broadcasts_S8x32x1x64_S8x32x30x64 th w l e).trans ?_
  refine (cast_unit_third_of_four (sumv x) shapeCasts_S8x32x64_S8x32x1x64 th w (0 : Fin 1) e).trans ?_
  exact sumv_at x u u' th w e

theorem sc_at (l : Fin 30) : sc x (ix3 th w l) = score (grp x u u' th w) l := by
  unfold sc score
  refine (sum_last_of_four (mulf (tok x) (sumb x)) reduces_S8x32x30x64_S8x32x30 (.inl rfl) rfl th w l).trans ?_
  refine Finset.sum_congr rfl fun e _ => ?_
  show tok x (ix4 th w l e) * sumb x (ix4 th w l e) = _
  rw [tok_at x u u' th w l e, sumb_at x u u' th w l e]

theorem top_at : top x (ix2 th w) = topScore (grp x u u' th w) := by
  unfold top topScore
  show max (Ideal.ofBits .f32 0xFF800000#32)
      (multiReduction .maximumf [2] S8x32 (sc x) 0xFF800000#32 reduces_S8x32x30_S8x32 (.inl rfl) rfl (ix2 th w)) = _
  refine congrArg (max (Ideal.ofBits .f32 0xFF800000#32)) ?_
  refine (max_last_of_three (sc x) 0xFF800000#32 reduces_S8x32x30_S8x32 (.inl rfl) rfl th w).trans ?_
  exact congrArg (fun g : Fin 30 → EReal => (Finset.univ : Finset (Fin 30)).fold max (Ideal.ofBits .f32 0xFF800000#32) g)
    (funext fun l => sc_at x u u' th w l)

theorem topb_at (l : Fin 30) : topb x (ix3 th w l) = topScore (grp x u u' th w) := by
  unfold topb
  refine (bcast_last_of_three _ broadcasts_S8x32x1_S8x32x30 th w l).trans ?_
  refine (cast_unit_last_of_three (top x) shapeCasts_S8x32_S8x32x1 th w (0 : Fin 1)).trans ?_
  exact top_at x u u' th w

theorem ex_at (l : Fin 30) : ex x (ix3 th w l) = expScore (grp x u u' th w) l := by
  unfold ex expScore
  show Ideal.exp (sc x (ix3 th w l) - topb x (ix3 th w l)) = _
  rw [sc_at x u u' th w l, topb_at x u u' th w l]

theorem tot_at : tot x (ix2 th w) = expTotal (grp x u u' th w) := by
  unfold tot expTotal
  refine (sum_last_of_three (ex x) reduces_S8x32x30_S8x32 (.inl rfl) rfl th w).trans ?_
  exact Finset.sum_congr rfl fun l _ => ex_at x u u' th w l

theorem totb_at (l : Fin 30) : totb x (ix3 th w l) = expTotal (grp x u u' th w) := by
  unfold totb
  refine (bcast_last_of_three _ broadcasts_S8x32x1_S8x32x30 th w l).trans ?_
  refine (cast_unit_last_of_three (tot x) shapeCasts_S8x32_S8x32x1 th w (0 : Fin 1)).trans ?_
  exact tot_at x u u' th w

theorem wt_at (l : Fin 30) : wt x (ix3 th w l) = weight (grp x u u' th w) l := by
  unfold wt weight
  show Ideal.div (ex x (ix3 th w l)) (totb x (ix3 th w l)) = _
  rw [ex_at x u u' th w l, totb_at x u u' th w l]

theorem wtb_at (l : Fin 30) (e : Fin 64) : wtb x (ix4 th w l e) = weight (grp x u u' th w) l := by
  unfold wtb
  refine (bcast_last_of_four _ broadcasts_S8x32x30x1_S8x32x30x64 th w l e).trans ?_
  refine (cast_unit_last_of_four (wt x) shapeCasts_S8x32x30_S8x32x30x1 th w l (0 : Fin 1)).trans ?_
  exact wt_at x u u' th w l

theorem pooled_at (e : Fin 64) : pooled x (ix3 th w e) = poolRow (grp x u u' th w) e := by
  unfold pooled poolRow
  refine (sum_third_of_four (mulf (tok x) (wtb x)) reduces_S8x32x30x64_S8x32x64 (.inl rfl) rfl th w e).trans ?_
  refine Finset.sum_congr rfl fun l _ => ?_
  show tok x (ix4 th w l e) * wtb x (ix4 th w l e) = _
  rw [tok_at x u u' th w l e, wtb_at x u u' th w l e]

/-- THE STORED BLOCK at (u, u', th, w, e) is the pooled vector of the block's group (th, w), at e. -/
theorem pay_row (e : Fin 64) : k0_pay1 (F := Ideal) x (ix5 u u' th w e) = poolRow (grp x u u' th w) e := by
  rw [pay_eq]
  refine (cast_add_two_units (pooled x) shapeCasts_S8x32x64_S1x1x8x32x64 u u' th w e).trans ?_
  exact pooled_at x u u' th w e

end Cert.KernelIdeal.RowValue

end
-- ==== Proof.RefRow.lean ====
/-
  The reference's pooled array, read at a coordinate.

  The reference gathers the token vectors into an array [8, 6, 32, 32, 30, 64] and pools every group (b, t, h, w) of
  30 vectors of length 64: summary vector, scores, softmax, weighted sum. Its operations are read one at a time at an
  index (the generated reading of the reference); here each stage is read at the coordinates of a group and is the
  matching function of PoolRow.lean of that group's 30 gathered vectors `fun l e => gathered (b, t, h, w, l, e)`.
  The host's sums start from the word of zero, which adds nothing; the host's maximum over the tokens is the maximum
  folded from the value of the word of −∞ over the 30 scores.
-/
import proofs.«126730_j1537598292345_1_alg».proof.Proof.Gen.ReferenceIdeal.Read
import proofs.«126730_j1537598292345_1_alg».proof.Proof.PoolRow
import proofs.«126730_j1537598292345_1_alg».proof.Proof.LibGroupLayout

noncomputable section

open scoped BigOperators

namespace Cert.ReferenceIdeal.RowValue

open Idealize.ShloMosaic Idealize.ShloMosaic.ValueIdx Cert.ReferenceIdeal Cert.ReferenceIdeal.Gen Cert.ReferenceIdeal.Read
open Cert.Pool Cert.LibGroupLayout

variable (x0 : (⟨S8x6x32x32x30, .i32⟩ : BufTy).Contents (Elt Ideal)) (x1 : (⟨S50000x64, .f32⟩ : BufTy).Contents (Elt Ideal))
variable (b : Fin 8) (t : Fin 6) (h : Fin 32) (w : Fin 32)

/-- The 30 gathered vectors of group (b, t, h, w). -/
def grp : Fin 30 → Fin 64 → EReal := fun l e => val_main_v6 (F := Ideal) x0 x1 (ix6 b t h w l e)

/-- The word of zero denotes zero, so a host sum started from it is the plain sum. -/
theorem zero_word_add (s : EReal) : Ideal.ofBits .f32 0x00000000#32 + s = s := by
  rw [Ideal.ofBits_zero_f32, zero_add]

/-- The summary vector of the group. -/
theorem v7_at (e : Fin 64) : val_main_v7 (F := Ideal) x0 x1 (ix5 b t h w e) = summary (grp x0 x1 b t h w) e := by
  rw [val_main_v7_apply]
  refine (zero_word_add _).trans ?_
  unfold summary
  refine Finset.sum_congr rfl fun l _ => ?_
  exact congrArg (val_main_v6 (F := Ideal) x0 x1) (funext fun a => Fin.ext (by match a with | ⟨0, _⟩ => rfl | ⟨1, _⟩ => rfl | ⟨2, _⟩ => rfl | ⟨3, _⟩ => rfl | ⟨4, _⟩ => rfl | ⟨5, _⟩ => rfl))

/-- The summary vector repeated along the tokens. -/
theorem v9_at (l : Fin 30) (e : Fin 64) :
    val_main_v9 (F := Ideal) x0 x1 (ix6 b t h w l e) = summary (grp x0 x1 b t h w) e := by
  rw [val_main_v9_apply, val_main_v8_apply]
  have hi : idx_main_v8 (idx_main_v9 (ix6 b t h w l e)) = ix5 b t h w e := funext fun a => Fin.ext (by match a with | ⟨0, _⟩ => rfl | ⟨1, _⟩ => rfl | ⟨2, _⟩ => rfl | ⟨3, _⟩ => rfl | ⟨4, _⟩ => rfl)
  rw [hi]
  exact v7_at x0 x1 b t h w e

/-- A token's score. -/
theorem v11_at (l : Fin 30) : val_main_v11 (F := Ideal) x0 x1 (ix5 b t h w l) = score (grp x0 x1 b t h w) l := by
  rw [val_main_v11_apply]
  refine (zero_word_add _).trans ?_
  unfold score
  refine Finset.sum_congr rfl fun e _ => ?_
  have hi : idx_main_v11 (ix5 b t h w l) e = ix6 b t h w l e := funext fun a => Fin.ext (by match a with | ⟨0, _⟩ => rfl | ⟨1, _⟩ => rfl | ⟨2, _⟩ => rfl | ⟨3, _⟩ => rfl | ⟨4, _⟩ => rfl | ⟨5, _⟩ => rfl)
  rw [hi, val_main_v10_apply]
  show val_main_v6 (F := Ideal) x0 x1 (ix6 b t h w l e) * val_main_v9 (F := Ideal) x0 x1 (ix6 b t h w l e) = _
  rw [v9_at x0 x1 b t h w l e]
  rfl

/-- The host's maximum over the tokens, folded from the value of the word of −∞. -/
theorem v12_at : val_main_v12 (F := Ideal) x0 x1 (ix4 b t h w)
    = (Finset.univ : Finset (Fin 30)).fold max negInf (score (grp x0 x1 b t h w)) := by
  unfold val_main_v12
  have hR : S8x6x32x32x30.Reduces [4] S8x6x32x32 := by decide
  rw [Host.reduce_eq_fold_single (FloatOps.maximumf (F := Ideal) (φ := .f32)) _ _ reducesTo_S8x6x32x32x30_S8x6x32x32_d4 hR h_S_]
  show (Finset.univ : Finset (Fin 30)).fold max negInf (val_main_v11 (F := Ideal) x0 x1 ∘ hR.lift (ix4 b t h w)) = _
  refine congrArg (fun g : Fin 30 → EReal => (Finset.univ : Finset (Fin 30)).fold max negInf g) (funext fun l => ?_)
  show val_main_v11 (F := Ideal) x0 x1 (hR.lift (ix4 b t h w) l) = _
  have hl : hR.lift (ix4 b t h w) l = ix5 b t h w l := funext fun a => Fin.ext (by match a with | ⟨0, _⟩ => rfl | ⟨1, _⟩ => rfl | ⟨2, _⟩ => rfl | ⟨3, _⟩ => rfl | ⟨4, _⟩ => rfl)
  rw [hl]
  exact v11_at x0 x1 b t h w l

/-- The group's largest score. -/
theorem v14_at : val_main_v14 (F := Ideal) x0 x1 (ix4 b t h w) = topScore (grp x0 x1 b t h w) := by
  rw [val_main_v14_apply, val_main_v13_apply]
  unfold topScore
  show max negInf (val_main_v12 (F := Ideal) x0 x1 (ix4 b t h w)) = _
  rw [v12_at x0 x1 b t h w]

/-- The largest score repeated along the tokens. -/
theorem v16_at (l : Fin 30) : val_main_v16 (F := Ideal) x0 x1 (ix5 b t h w l) = topScore (grp x0 x1 b t h w) := by
  rw [val_main_v16_apply, val_main_v15_apply]
  have hi : idx_main_v15 (idx_main_v16 (ix5 b t h w l)) = ix4 b t h w := funext fun a => Fin.ext (by match a with | ⟨0, _⟩ => rfl | ⟨1, _⟩ => rfl | ⟨2, _⟩ => rfl | ⟨3, _⟩ => rfl)
  rw [hi]
  exact v14_at x0 x1 b t h w

/-- The exponential of a token's score less the largest. -/
theorem v18_at (l : Fin 30) : val_main_v18 (F := Ideal) x0 x1 (ix5 b t h w l) = expScore (grp x0 x1 b t h w) l := by
  unfold expScore
  show Ideal.exp (val_main_v11 (F := Ideal) x0 x1 (ix5 b t h w l) - val_main_v16 (F := Ideal) x0 x1 (ix5 b t h w l)) = _
  rw [v11_at x0 x1 b t h w l, v16_at x0 x1 b t h w l]

/-- The group's sum of exponentials. -/
theorem v19_at : val_main_v19 (F := Ideal) x0 x1 (ix4 b t h w) = expTotal (grp x0 x1 b t h w) := by
  rw [val_main_v19_apply]
  refine (zero_word_add _).trans ?_
  unfold expTotal
  refine Finset.sum_congr rfl fun l _ => ?_
  have hi : idx_main_v19 (ix4 b t h w) l = ix5 b t h w l := funext fun a => Fin.ext (by match a with | ⟨0, _⟩ => rfl | ⟨1, _⟩ => rfl | ⟨2, _⟩ => rfl | ⟨3, _⟩ => rfl | ⟨4, _⟩ => rfl)
  rw [hi]
  exact v18_at x0 x1 b t h w l

/-- That sum repeated along the tokens. -/
theorem v21_at (l : Fin 30) : val_main_v21 (F := Ideal) x0 x1 (ix5 b t h w l) = expTotal (grp x0 x1 b t h w) := by
  rw [val_main_v21_apply, val_main_v20_apply]
  have hi : idx_main_v20 (idx_main_v21 (ix5 b t h w l)) = ix4 b t h w := funext fun a => Fin.ext (by match a with | ⟨0, _⟩ => rfl | ⟨1, _⟩ => rfl | ⟨2, _⟩ => rfl | ⟨3, _⟩ => rfl)
  rw [hi]
  exact v19_at x0 x1 b t h w

/-- A token's softmax weight. -/
theorem v22_at (l : Fin 30) : val_main_v22 (F := Ideal) x0 x1 (ix5 b t h w l) = weight (grp x0 x1 b t h w) l := by
  unfold weight
  show Ideal.div (val_main_v18 (F := Ideal) x0 x1 (ix5 b t h w l)) (val_main_v21 (F := Ideal) x0 x1 (ix5 b t h w l)) = _
  rw [v18_at x0 x1 b t h w l, v21_at x0 x1 b t h w l]

/-- The weight repeated along the 64 entries. -/
theorem v24_at (l : Fin 30) (e : Fin 64) :
    val_main_v24 (F := Ideal) x0 x1 (ix6 b t h w l e) = weight (grp x0 x1 b t h w) l := by
  rw [val_main_v24_apply, val_main_v23_apply]
  have hi : idx_main_v23 (idx_main_v24 (ix6 b t h w l e)) = ix5 b t h w l := funext fun a => Fin.ext (by match a with | ⟨0, _⟩ => rfl | ⟨1, _⟩ => rfl | ⟨2, _⟩ => rfl | ⟨3, _⟩ => rfl | ⟨4, _⟩ => rfl)
  rw [hi]
  exact v22_at x0 x1 b t h w l

/-- THE POOLED ARRAY at (b, t, h, w, e) is the pooled vector of the gathered group (b, t, h, w), at e. -/
theorem v26_at (e : Fin 64) : val_main_v26 (F := Ideal) x0 x1 (ix5 b t h w e) = poolRow (grp x0 x1 b t h w) e := by
  rw [val_main_v26_apply]
  refine (zero_word_add _).trans ?_
  unfold poolRow
  refine Finset.sum_congr rfl fun l _ => ?_
  have hi : idx_main_v26 (ix5 b t h w e) l = ix6 b t h w l e := funext fun a => Fin.ext (by match a with | ⟨0, _⟩ => rfl | ⟨1, _⟩ => rfl | ⟨2, _⟩ => rfl | ⟨3, _⟩ => rfl | ⟨4, _⟩ => rfl | ⟨5, _⟩ => rfl)
  rw [hi, val_main_v25_apply]
  show val_main_v6 (F := Ideal) x0 x1 (ix6 b t h w l e) * val_main_v24 (F := Ideal) x0 x1 (ix6 b t h w l e) = _
  rw [v24_at x0 x1 b t h w l e]
  rfl

end Cert.ReferenceIdeal.RowValue

end
-- ==== Proof.PooledArray.lean ====
/-
  The pipeline's output array after the run: the reference's pooled array of the same gathered vectors.

  The grid has 8 × 6 × 4 points; point (b, t, k) reads the block of the gathered array holding the groups
  (b, t, 8k … 8k+7, all w) and writes the block of the output array with the same leading block indices. What a
  point writes back, at (u, u', th, w, e) of its block, is the pooled vector of the block's group (th, w) at e
  (KernelRow.lean), and that group is the gathered array's group (b, t, 8k + th, w), whose pooled vector at e is the
  reference's pooled array at (b, t, 8k + th, w, e) (RefRow.lean). The output's blocks tile its array — index
  (b, t, h, w, e) lies in the block of point (b, t, h / 8) — so the array ends as that pooled array, whole.
  The gathered array the region finds is the host operations before it, applied to the arguments: the same
  operations, in the same order, as the reference's.
-/
import proofs.«126730_j1537598292345_1_alg».proof.Proof.Gen.KernelIdeal.Frame
import proofs.«126730_j1537598292345_1_alg».proof.Proof.KernelRow
import proofs.«126730_j1537598292345_1_alg».proof.Proof.RefRow
import Idealize.ShloMosaic.Lib.Pipeline.Value
import Idealize.ShloMosaic.Lib.StableHlo.Run

set_option maxRecDepth 16384

noncomputable section

namespace Cert.KernelIdeal.ArrValue

open Idealize.ShloMosaic Idealize.ShloMosaic.TcCoe Idealize.SL.Sem Idealize.ShloMosaic.StableHlo
open Cert.KernelIdeal Cert.KernelIdeal.Gen
open Idealize.ShloMosaic.ValueIdx Cert.Pool Cert.LibGroupLayout
open Idealize.ShloMosaic.Pipeline (Dat)

variable (m : (ℓ : Loc nD τ sig) → Buf (Elt Ideal) ℓ) (ρ : Dev nD → PrngReg)

/-! ## The gathered array the region finds -/

/-- The reference's gathered array of this memory's arguments. -/
abbrev gathered (c : Dev nD) : S8x6x32x32x30x64.Idx → EReal :=
  Cert.ReferenceIdeal.Read.val_main_v6 (F := Ideal) (m ((c : Thread nD τ).loc main_arg0)) (m ((c : Thread nD τ).loc main_arg1))

/-- The reference's pooled array of this memory's arguments. -/
abbrev pooledArr (c : Dev nD) : S8x6x32x32x64.Idx → EReal :=
  Cert.ReferenceIdeal.Read.val_main_v26 (F := Ideal) (m ((c : Thread nD τ).loc main_arg0)) (m ((c : Thread nD τ).loc main_arg1))

/-- The array the first window stages, as the region finds it, is the gathered array: the host operations before
    the region are the reference's first nine. -/
theorem V_gathered (c : Dev nD) : (V m c main_v6 : S8x6x32x32x30x64.Idx → EReal) = gathered m c := by
  show StableHlo.after hostOps0 (fun b => m (c, b)) (Proc.devRef .tc main_v6) = _
  after_results
  rfl

/-! ## The index maps over the grid -/

theorem hz5 : (![0, 0, 0, 0, 0] : Fin 5 → Nat) = fun _ => 0 := funext fun a => by fin_cases a <;> rfl
theorem hz6 : (![0, 0, 0, 0, 0, 0] : Fin 6 → Nat) = fun _ => 0 := funext fun a => by fin_cases a <;> rfl

/-- The two windows move together on the three leading axes and stay at block 0 on the others; the block indices
    stay in their ranges. -/
theorem idx_facts : ∀ t : Fin cfg0.N,
    win0_0.index t (0 : Fin 6) = win0_1.index t (0 : Fin 5)
    ∧ win0_0.index t (1 : Fin 6) = win0_1.index t (1 : Fin 5)
    ∧ win0_0.index t (2 : Fin 6) = win0_1.index t (2 : Fin 5)
    ∧ win0_0.index t (3 : Fin 6) = 0 ∧ win0_0.index t (4 : Fin 6) = 0 ∧ win0_0.index t (5 : Fin 6) = 0
    ∧ win0_1.index t (3 : Fin 5) = 0 ∧ win0_1.index t (4 : Fin 5) = 0
    ∧ win0_1.index t (0 : Fin 5) ≤ 7 ∧ win0_1.index t (1 : Fin 5) ≤ 5 ∧ win0_1.index t (2 : Fin 5) ≤ 3 :=
  (by decide +kernel : ∀ t : Fin grid0.N, _)

/-- Every block of the output array is some point's. -/
theorem idx_onto : ∀ (q0 : Fin 8) (q1 : Fin 6) (q2 : Fin 4), ∃ t : Fin cfg0.N, win0_1.index t = ![q0.val, q1.val, q2.val, 0, 0] :=
  (by decide +kernel : ∀ (q0 : Fin 8) (q1 : Fin 6) (q2 : Fin 4), ∃ t : Fin grid0.N, win0_1.index t = ![q0.val, q1.val, q2.val, 0, 0])

/-! ## One point -/

/-- The stored block at `j` is the reference's pooled array at `i`, when the loaded block's group at `j`'s leading
    coordinates is the gathered group at `i`'s, and the two indices end in the same entry. -/
theorem point_eq (x0 : (⟨Cert.ReferenceIdeal.S8x6x32x32x30, .i32⟩ : BufTy).Contents (Elt Ideal))
    (x1 : (⟨Cert.ReferenceIdeal.S50000x64, .f32⟩ : BufTy).Contents (Elt Ideal))
    (xb : FVec Ideal S1x1x8x32x30x64 .f32) (j : S1x1x8x32x64.Idx) (i : S8x6x32x32x64.Idx)
    (he : (i 4).val = (j 4).val)
    (hx : ∀ (l : Fin 30) (e : Fin 64), xb (ix6 (j 0) (j 1) (j 2) (j 3) l e)
      = Cert.ReferenceIdeal.Read.val_main_v6 (F := Ideal) x0 x1 (ix6 (i 0) (i 1) (i 2) (i 3) l e)) :
    k0_pay1 (F := Ideal) xb j = Cert.ReferenceIdeal.Read.val_main_v26 (F := Ideal) x0 x1 i := by
  have hk := (congrArg (k0_pay1 (F := Ideal) xb) (eq_ix5 j)).trans
    (Cert.KernelIdeal.RowValue.pay_row xb (j 0) (j 1) (j 2) (j 3) (j 4))
  have hr := (congrArg (Cert.ReferenceIdeal.Read.val_main_v26 (F := Ideal) x0 x1) (eq_ix5 i)).trans
    (Cert.ReferenceIdeal.RowValue.v26_at x0 x1 (i 0) (i 1) (i 2) (i 3) (i 4))
  have hg : Cert.KernelIdeal.RowValue.grp xb (j 0) (j 1) (j 2) (j 3)
      = Cert.ReferenceIdeal.RowValue.grp x0 x1 (i 0) (i 1) (i 2) (i 3) := funext fun l => funext fun e => hx l e
  have h4 : (j 4 : Fin 64) = i 4 := Fin.ext he.symm
  rw [hk, hr, hg, h4]

/-! ## What a point writes back -/

/-- WHAT POINT `t` WRITES BACK is block `t` of the reference's pooled array. -/
theorem flushed_eq (c : Dev nD) (t : Fin cfg0.N) :
    (dats m 0 c).flushed 1 t = ((cfg0.win 1).blk t).view.read (Elt Ideal) (pooledArr m c) := by
  show (cfg0.win 1).cut (grid0.coords t) ((dats m 0 c).after 1 t) = _
  rw [after0_1]
  unfold out0_1
  rw [View.canon_unit_zero hz5]
  simp only [View.ld_unit_zero (S := S1x1x8x32x30x64) hz6]
  obtain ⟨e0, e1, e2, e3, e4, e5, e6, e7, -, -, -⟩ := idx_facts t
  funext j
  show k0_pay1 (F := Ideal) (iblk m c 0 t) j = pooledArr m c (((cfg0.win 1).blk t).view.emb j)
  refine point_eq _ _ (iblk m c 0 t) j (((cfg0.win 1).blk t).view.emb j) ?_ ?_
  · show win0_1.index t (4 : Fin 5) * 64 + 1 * (j 4).val = (j 4).val
    omega
  · intro l e
    show V m c main_v6 (((cfg0.win 0).blk t).view.emb (ix6 (j 0) (j 1) (j 2) (j 3) l e)) = _
    rw [V_gathered]
    refine congrArg (gathered m c) (funext fun a => Fin.ext ?_)
    match a with
    | ⟨0, _⟩ => show win0_0.index t (0 : Fin 6) * 1 + 1 * (j 0).val = win0_1.index t (0 : Fin 5) * 1 + 1 * (j 0).val; omega
    | ⟨1, _⟩ => show win0_0.index t (1 : Fin 6) * 1 + 1 * (j 1).val = win0_1.index t (1 : Fin 5) * 1 + 1 * (j 1).val; omega
    | ⟨2, _⟩ => show win0_0.index t (2 : Fin 6) * 8 + 1 * (j 2).val = win0_1.index t (2 : Fin 5) * 8 + 1 * (j 2).val; omega
    | ⟨3, _⟩ => show win0_0.index t (3 : Fin 6) * 32 + 1 * (j 3).val = win0_1.index t (3 : Fin 5) * 32 + 1 * (j 3).val; omega
    | ⟨4, _⟩ => show win0_0.index t (4 : Fin 6) * 30 + 1 * l.val = l.val; omega
    | ⟨5, _⟩ => show win0_0.index t (5 : Fin 6) * 64 + 1 * e.val = e.val; omega

/-! ## The cover -/

/-- An index of the output array is in point `t`'s block iff each coordinate is in the block's range on its axis. -/
theorem mem_blk (t : Fin cfg0.N) (i : S8x6x32x32x64.Idx) :
    i ∈ ((cfg0.win 1).blk t).view.set ↔ ∀ a : Fin 5, win0_1.index t a * S1x1x8x32x64.size a ≤ (i a).val
      ∧ (i a).val < win0_1.index t a * S1x1x8x32x64.size a + S1x1x8x32x64.size a := by
  show i ∈ ((View.whole main_v7).slice (win0_1.rect t)).set ↔ _
  rw [View.set_slice_whole, Rect.mem_set_unit]
  exact Iff.rfl

/-- Every index of the output array is in the block of the point whose block indices are its three leading
    coordinates, the third divided by 8. -/
theorem cover (i : S8x6x32x32x64.Idx) : ∃ t : Fin cfg0.N, (cfg0.win 1).flush t = true ∧ i ∈ ((cfg0.win 1).blk t).view.set := by
  have hi0 : (i 0).val < 8 := (i 0).isLt
  have hi1 : (i 1).val < 6 := (i 1).isLt
  have hi2 : (i 2).val < 32 := (i 2).isLt
  have hi3 : (i 3).val < 32 := (i 3).isLt
  have hi4 : (i 4).val < 64 := (i 4).isLt
  obtain ⟨t, ht⟩ := idx_onto ⟨(i 0).val, hi0⟩ ⟨(i 1).val, hi1⟩ ⟨(i 2).val / 8, by omega⟩
  have q0 : win0_1.index t (0 : Fin 5) = (i 0).val := congrFun ht 0
  have q1 : win0_1.index t (1 : Fin 5) = (i 1).val := congrFun ht 1
  have q2 : win0_1.index t (2 : Fin 5) = (i 2).val / 8 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 8 ≤ (i 2).val ∧ (i 2).val < win0_1.index t (2 : Fin 5) * 8 + 8; omega
  | ⟨3, _⟩ => show win0_1.index t (3 : Fin 5) * 32 ≤ (i 3).val ∧ (i 3).val < win0_1.index t (3 : Fin 5) * 32 + 32; omega
  | ⟨4, _⟩ => show win0_1.index t (4 : Fin 5) * 64 ≤ (i 4).val ∧ (i 4).val < win0_1.index t (4 : Fin 5) * 64 + 64; omega

/-! ## The array after the run -/

/-- THE OUTPUT ARRAY after the run is the reference's pooled array of the same arguments. -/
theorem final (c : Dev nD) : (dats m 0 c).arrAt 1 cfg0.N = pooledArr m c :=
  (dats m 0 c).arrAt_eq_of_cover 1 (pooledArr m c) (fun t _ => flushed_eq m c t) (cover)

end Cert.KernelIdeal.ArrValue

end
-- ==== Proof.KernelRun.lean ====
/-
  The kernel program's run, with its result named.

  After the region the program transposes the output array to [8, 6, 64, 32, 32] and reshapes it to [8, 384, 32, 32]:
  the two operations the reference ends with. The frame run leaves the result buffer at those two operations applied
  to the output array after the region, which is the reference's pooled array of the same arguments
  (PooledArray.lean); so the result is the reference's own last stage, read at this program's arguments. The argument
  arrays end as they were.
-/
import proofs.«126730_j1537598292345_1_alg».proof.Proof.PooledArray

set_option maxRecDepth 16384

noncomputable section

namespace Cert.KernelIdeal.ArrValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The reference's result of this memory's arguments. -/
abbrev result (c : Dev nD) : Buf (Elt Ideal) ((c : Thread nD τ).loc main_v9) :=
  Cert.ReferenceIdeal.Read.val_main_v28 (F := Ideal) (m ((c : Thread nD τ).loc main_arg0)) (m ((c : Thread nD τ).loc main_arg1))

/-- The output array as the lines after the region find it: the pooled array. -/
theorem exit_array (c : Dev nD) :
    Pipeline.withArrays (cfgs 0).spec c (V0 m c) (fun w => (dats m 0 c).arrAt w (cfgs 0).N) (Proc.devRef .tc main_v7)
      = pooledArr m c :=
  (Pipeline.withArrays_arr spec0 launch0.win.arr_inj c _ _ 1).trans (final m c)

/-- The result buffer after the lines that follow the region: the transpose and the reshape of the pooled array,
    which is the reference's last stage. -/
theorem tail_eq (c : Dev nD) : Pipeline.afterTail₀ cfgs (dats m) 0 (V0 m) [hostOps1] c main_v9 = result m c := by
  unfold Pipeline.afterTail₀
  show StableHlo.after hostOps1 _ (Proc.devRef .tc main_v9) = _
  after_results
  rw [exit_array m c]
  rfl

/-- THE RUN: every weakly fair execution ends with the result buffer at the reference's last stage of the arguments,
    and the arguments as they were. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v9 (Pipeline.mem_restRefs_of main_v9 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrValue

end
-- ==== Proof.lean ====
/-
  Attention pooling of gathered token vectors: the Pallas kernel against its jnp reference, over the extended reals.

  Both programs gather, on the host and by the same operations, the rows of a [50000, 64] table named by an index array
  [8, 6, 32, 32, 30] (a negative index first moved up by 50000), giving for each of the 8 · 6 · 32 · 32 groups 30 vectors
  of length 64. Each group is pooled: the summary vector is the sum of the 30; a vector's score is its inner product
  with the summary; the weights are the softmax of the scores; the pooled vector is the weighted sum. Both programs
  end by transposing the pooled array to [8, 6, 64, 32, 32] and reshaping it to [8, 384, 32, 32].
  The reference pools the whole array with host operations. The kernel pools it block by block on a grid of 8 · 6 · 4
  points, 8 · 32 groups to a block; the operations inside a block are the reference's, one for one: the sums the same
  finite sums, the maximum the same fold from −∞, the exponential and the quotient the same functions, the literals the
  same two words (zero, which a sum started from it does not feel, and −∞, never evaluated). So at the exact
  arithmetic of the extended reals nothing separates the two but the tiling, and no law of arithmetic is used beyond
  0 + s = s: the precondition is never opened.
  PoolRow.lean states the pooling of one group; KernelRow.lean reads the kernel body's stored block, and RefRow.lean
  the reference's pooled array, at a group's coordinates as that pooling; PooledArray.lean covers the output array with
  the points' blocks; KernelRun.lean adds the transpose and the reshape. The frames of the two kernel programs and the
  reference's run are the generated ones; the idealization rewrote nothing, so its claim is trivial.
-/
import proofs.«126730_j1537598292345_1_alg».proof.Defs
import proofs.«126730_j1537598292345_1_alg».proof.Proof.Gen.Kernel
import proofs.«126730_j1537598292345_1_alg».proof.Proof.Gen.Kernel.Skeleton
import proofs.«126730_j1537598292345_1_alg».proof.Proof.Gen.Kernel.Launch
import proofs.«126730_j1537598292345_1_alg».proof.Proof.Gen.Kernel.Points
import proofs.«126730_j1537598292345_1_alg».proof.Proof.Gen.Kernel.Frame
import proofs.«126730_j1537598292345_1_alg».proof.Proof.Gen.KernelIdeal
import proofs.«126730_j1537598292345_1_alg».proof.Proof.Gen.KernelIdeal.Skeleton
import proofs.«126730_j1537598292345_1_alg».proof.Proof.Gen.KernelIdeal.Launch
import proofs.«126730_j1537598292345_1_alg».proof.Proof.Gen.KernelIdeal.Points
import proofs.«126730_j1537598292345_1_alg».proof.Proof.Gen.KernelIdeal.Frame
import proofs.«126730_j1537598292345_1_alg».proof.Proof.Gen.ReferenceIdeal
import proofs.«126730_j1537598292345_1_alg».proof.Proof.Gen.Pre_finite_inputs
import proofs.«126730_j1537598292345_1_alg».proof.Proof.Gen.ReferenceIdeal.Run
import proofs.«126730_j1537598292345_1_alg».proof.Proof.Gen.ReferenceIdeal.Read
import proofs.«126730_j1537598292345_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, with the result left out. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments the two idealized programs end with one result: the reference's last
    stage of those arguments. -/
theorem algebraic : Cert.algebraic_KernelIdeal_ReferenceIdeal := by
  intro m ρ m' ρ' _ hagree
  refine ⟨fun c => Cert.KernelIdeal.ArrValue.result m c, Cert.KernelIdeal.ArrValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
